-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 4
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S400x128, .f32⟩
  | .local _ .vmem, ⟨7, _⟩ => ⟨S400x128, .f32⟩
  | .local _ .vmem, ⟨8, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Base.lean ====
/-
  The shared ground of the hand-written frame of the kernel as printed: a graph-convolution layer
  `out = adj · (x · W)` run as ONE pipelined region over 25 grid points. The region-entry contents of the
  four arrays, each window's block at a grid point read off its array, the staging memrefs a point is called
  with, and the one branch of the body (`program_id == 0`: the product `x · W` is computed once, at the first
  point, into a scratch buffer every later point reads), decided over the grid.
-/
import proofs.«119389_g1580547973936_cont_week2b_921_11_alg».proof.Proof.Gen.Kernel.Launch
import proofs.«119389_g1580547973936_cont_week2b_921_11_alg».proof.Proof.Gen.Kernel.Skeleton
import proofs.«119389_g1580547973936_cont_week2b_921_11_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and the windows' blocks -/

/-- Core `c`'s buffer contents when the region is entered: @main is the region alone, so the launch contents. -/
abbrev V (c : Dev nD) (b : Ref sig .tc) : Buf (Elt F) ((c : Thread nD τ).loc b) := m ((c : Thread nD τ).loc b)

/-- Window `w`'s block at point `t`, read off its array as the region finds it: all of `x` (window 0), all of
    `W` (window 1), rows `400 t … 400 t + 199` of `adj` (window 2), rows `400 t + 200 … 400 t + 399` of `adj`
    (window 3). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place: where the pipeline does not
    fetch, the block index has not moved. One statement per input window (the block's type is the window's own). -/
theorem before_in0_of {c : Dev nD} (dat : Dat τ (Elt F) Unit ℕ (UR sig nD τ) ℕ cfg0 c)
    (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c)
    (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c)
    (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

theorem before_in3_of {c : Dev nD} (dat : Dat τ (Elt F) Unit ℕ (UR sig nD τ) ℕ cfg0 c)
    (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)

/-! ## The body's branch -/

/-- The condition of the body's one `scf.if`: the grid coordinate is zero. -/
abbrev cond0 (i : grid0.Coords) : Prop :=
  (Scalar.cmpi .ne (Scalar.extui (Scalar.cmpi .eq (BitVec.ofNat 32 (i 0).val) 0#32)) 0#32) = 1#1
/-- It holds at the first grid point only. -/
theorem hcond0 : ∀ t : Fin cfg0.N, cond0 (grid0.coords t) ↔ t.val = 0 :=
  (by decide +kernel : ∀ t : Fin grid0.N, cond0 (grid0.coords t) ↔ t.val = 0)

/-! ## The memrefs a point is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The scratch operand that carries `x · W` from the first point to the later ones. -/
abbrev scM : Memref sig .tc .vmem S10000x128 .bf16 := Memref.whole cc0_scratch0
/-- One staging buffer of the output window and the scratch as views, through which their contents are stated. -/
abbrev VO : View sig .tc .vmem S400x128 .f32 := (Memref.whole cc0_stg4_0 : Memref sig .tc .vmem S400x128 .f32).view
abbrev VS : View sig .tc .vmem S10000x128 .bf16 := scM.view

/-- The core's scoped buffers that are no staging buffer: the scratch, owned whole at some contents. -/
theorem scopedRest_owns (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.K.RunA.lean ====
/-
  The kernel body run whole at the FIRST grid point, where its one branch is taken: it loads all of `x` and `W`,
  stores their product into the scratch, then loads the two row blocks of `adj`, reads the scratch back twice and
  stores the two products into the upper and lower halves of the output block. The stores each buffer ends with
  are found by the run, as lists of pieces.
-/
import proofs.«119389_g1580547973936_cont_week2b_921_11_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the four input blocks at their contents, the output block and the scratch at anything — the
    body at a point where the branch is taken runs to its continuation holding the inputs as they were and the
    output block and the scratch with the found pieces written. -/
noncomputable def kernelRun_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) :
    Σ' (L4 : List (View.Piece (Elt F) S400x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact HS

end Cert.Kernel.Hand

end
-- ==== Proof.K.RunB.lean ====
/-
  The kernel body run whole at a LATER grid point, where its one branch is not taken: it loads the two row blocks
  of `adj`, reads the scratch (which still holds the product the first point stored) twice and stores the two
  products into the upper and lower halves of the output block; the scratch is read, never written.
-/
import proofs.«119389_g1580547973936_cont_week2b_921_11_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the four input blocks and the scratch at their contents, the output block at anything — the
    body at a point where the branch is not taken runs to its continuation holding the inputs and the scratch as
    they were and the output block with the found pieces written. -/
noncomputable def kernelRun_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : ¬cond0 i)
    (x0 : Vec F S10000x128 .f32) (x1 : Vec F S128x128 .f32) (x2 : Vec F S200x10000 .f32) (x3 : Vec F S200x10000 .f32)
    (xs : Vec F S10000x128 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3
    obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; isplitr; · ipureintro; exact harg6.read_unread _
    iexact HS

end Cert.Kernel.Hand

end
-- ==== Proof.K.Body.lean ====
/-
  The body obligation of the one pipelined region. At the first grid point the body stores the product `x · W`
  into the scratch and the two row-block products into the output block; at every later point it reads the scratch
  the first point left and stores the two row-block products. So the region invariant tracks the scratch: anything
  before the first point, the first point's product ever after. The proof data name, point by point, what the body
  leaves in each staging buffer: each input's block as it found it, the output block at the case's stores read
  back.
-/
import proofs.«119389_g1580547973936_cont_week2b_921_11_alg».proof.Proof.K.RunA
import proofs.«119389_g1580547973936_cont_week2b_921_11_alg».proof.Proof.K.RunB
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ)

/-! ## What each case leaves -/

/-- The first point's two stores into the output block tile it. -/
theorem cover_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) (y : S400x128.Idx) :
    ∃ pc ∈ (kernelRun_A c i arg1 harg1 arg2 harg2 arg3 harg3 arg4 harg4 arg5 harg5 arg6 harg6 hc x0 x1 x2 x3).1, y ∈ pc.1.set :=
  View.cover_of_tiledL (kernelRun_A c i arg1 harg1 arg2 harg2 arg3 harg3 arg4 harg4 arg5 harg5 arg6 harg6 hc x0 x1 x2 x3).1 S200x128.size (by sl_kernel_rfl) y

/-- Its one store into the scratch covers it. -/
theorem scover_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) (y : S10000x128.Idx) :
    ∃ pc ∈ (kernelRun_A c i arg1 harg1 arg2 harg2 arg3 harg3 arg4 harg4 arg5 harg5 arg6 harg6 hc x0 x1 x2 x3).2.1, y ∈ pc.1.set :=
  View.cover_of_tiledL (kernelRun_A c i arg1 harg1 arg2 harg2 arg3 harg3 arg4 harg4 arg5 harg5 arg6 harg6 hc x0 x1 x2 x3).2.1 S10000x128.size (by sl_kernel_rfl) y

/-- A later point's two stores into the output block tile it. -/
theorem cover_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : ¬cond0 i)
    (x0 : Vec F S10000x128 .f32) (x1 : Vec F S128x128 .f32) (x2 : Vec F S200x10000 .f32) (x3 : Vec F S200x10000 .f32) (xs : Vec F S10000x128 .bf16) (y : S400x128.Idx) :
    ∃ pc ∈ (kernelRun_B c i arg1 harg1 arg2 harg2 arg3 harg3 arg4 harg4 arg5 harg5 arg6 harg6 hc x0 x1 x2 x3 xs).1, y ∈ pc.1.set :=
  View.cover_of_tiledL (kernelRun_B c i arg1 harg1 arg2 harg2 arg3 harg3 arg4 harg4 arg5 harg5 arg6 harg6 hc x0 x1 x2 x3 xs).1 S200x128.size (by sl_kernel_rfl) y

/-- What the first point leaves in the output block: its stores read back. -/
def out_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) : Vec F S400x128 .f32 :=
  VO.read (Elt F) (VO.writes (Elt F) VO.junk (kernelRun_A c i arg1 harg1 arg2 harg2 arg3 harg3 arg4 harg4 arg5 harg5 arg6 harg6 hc x0 x1 x2 x3).1)

/-- What the first point leaves in the scratch: its store read back. -/
def sout_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) : Vec F S10000x128 .bf16 :=
  VS.read (Elt F) (VS.writes (Elt F) VS.junk (kernelRun_A c i arg1 harg1 arg2 harg2 arg3 harg3 arg4 harg4 arg5 harg5 arg6 harg6 hc x0 x1 x2 x3).2.1)

/-- What a later point leaves in the output block, the scratch holding `xs`: its stores read back. -/
def out_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : ¬cond0 i)
    (x0 : Vec F S10000x128 .f32) (x1 : Vec F S128x128 .f32) (x2 : Vec F S200x10000 .f32) (x3 : Vec F S200x10000 .f32) (xs : Vec F S10000x128 .bf16) : Vec F S400x128 .f32 :=
  VO.read (Elt F) (VO.writes (Elt F) VO.junk (kernelRun_B c i arg1 harg1 arg2 harg2 arg3 harg3 arg4 harg4 arg5 harg5 arg6 harg6 hc x0 x1 x2 x3 xs).1)

/-! ## Point by point -/

/-- The first grid point. -/
def t0 : Fin cfg0.N := ⟨0, by rw [show cfg0.N = 25 from N_0]; decide⟩

/-- What the scratch holds from the first point on: the first point's store (the product `x · W`). -/
def sup (c : Dev nD) : Vec F S10000x128 .bf16 :=
  sout_A c (grid0.coords t0) (ms0 t0) (hs0 t0) (ms1 t0) (hs1 t0) (ms2 t0) (hs2 t0) (ms3 t0) (hs3 t0) (ms4 t0) (hs4 t0) scM (Memref.isWhole_whole _) ((hcond0 t0).mpr rfl) (iblk m c 0 t0) (iblk m c 1 t0) (iblk m c 2 t0) (iblk m c 3 t0)

/-- What the body leaves in the output block at point `t`. -/
def outAt (c : Dev nD) (t : Fin cfg0.N) : Vec F S400x128 .f32 :=
  if h : t.val = 0 then
    out_A c (grid0.coords t) (ms0 t) (hs0 t) (ms1 t) (hs1 t) (ms2 t) (hs2 t) (ms3 t) (hs3 t) (ms4 t) (hs4 t) scM (Memref.isWhole_whole _) ((hcond0 t).mpr h) (iblk m c 0 t) (iblk m c 1 t) (iblk m c 2 t) (iblk m c 3 t)
  else
    out_B c (grid0.coords t) (ms0 t) (hs0 t) (ms1 t) (hs1 t) (ms2 t) (hs2 t) (ms3 t) (hs3 t) (ms4 t) (hs4 t) scM (Memref.isWhole_whole _) (fun hc => h ((hcond0 t).mp hc)) (iblk m c 0 t) (iblk m c 1 t) (iblk m c 2 t) (iblk m c 3 t) (sup m c)

theorem outAt_first (c : Dev nD) (t : Fin cfg0.N) (h : t.val = 0) :
    outAt m c t = out_A c (grid0.coords t) (ms0 t) (hs0 t) (ms1 t) (hs1 t) (ms2 t) (hs2 t) (ms3 t) (hs3 t) (ms4 t) (hs4 t) scM (Memref.isWhole_whole _) ((hcond0 t).mpr h) (iblk m c 0 t) (iblk m c 1 t) (iblk m c 2 t) (iblk m c 3 t) := dif_pos h

theorem outAt_later (c : Dev nD) (t : Fin cfg0.N) (h : ¬t.val = 0) :
    outAt m c t = out_B c (grid0.coords t) (ms0 t) (hs0 t) (ms1 t) (hs1 t) (ms2 t) (hs2 t) (ms3 t) (hs3 t) (ms4 t) (hs4 t) scM (Memref.isWhole_whole _) (fun hc => h ((hcond0 t).mp hc)) (iblk m c 0 t) (iblk m c 1 t) (iblk m c 2 t) (iblk m c 3 t) (sup m c) := dif_neg h

/-- The region invariant before position `n`: before the first point the scratch at anything; afterwards the
    scratch at the first point's product. -/
def PhiS (c : Dev nD) : ℕ → sProp 𝕄
  | 0 => Pipeline.scopedRest spec0 c
  | _ + 1 => owns (c : Thread nD τ) scM fullShare (sup m c)

theorem PhiS_pos (c : Dev nD) (n : ℕ) (hz : n ≠ 0) : PhiS m c n = owns (c : Thread nD τ) scM fullShare (sup m c) := by
  cases n with
  | zero => exact absurd rfl hz
  | succ n => rfl

/-! ## The proof data -/

/-- The proof data of the pipeline on core `c`: the arrays as the region finds them; after the body at point `t`
    each input's buffer at its block and the output's at `outAt`; the invariant `PhiS`; nothing owed; `adj`, read
    through two windows, held by halves, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; at the first point the scratch holds anything and
    is left at the product, at a later point it holds the product and is left so; the output block is left at the
    case's stores read back; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).Φ t.succ = owns (c : Thread nD τ) scM fullShare (sup m c) from rfl]
  by_cases hz : t.val = 0
  · obtain rfl : t = t0 := Fin.ext hz
    rw [show (dats m 0 c).Φ (t0 : Fin cfg0.N).castSucc = Pipeline.scopedRest spec0 c from rfl, scopedRest_owns]
    rw [outAt_first m c t0 rfl]
    unfold out_A sup sout_A
    iintro ⟨HS, Ho, ⟨%d0, H0⟩, ⟨%d1, H1⟩, ⟨%d2, H2⟩, ⟨%d3, H3⟩, ⟨%d4, H4⟩⟩
    iapply ((kernelRun_A c (grid0.coords t0) _ _ _ _ _ _ _ _ _ _ _ _ ((hcond0 t0).mpr rfl) (iblk m c 0 t0) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (scover_A c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_A c _ _ _ _ _ _ _ _ _ _ _ _ _ _ _ _ _ _)
  · rw [show (dats m 0 c).Φ t.castSucc = PhiS m c t.val from rfl, PhiS_pos m c _ hz]
    rw [outAt_later m c t hz]
    unfold out_B
    iintro ⟨HS, Ho, ⟨%d0, H0⟩, ⟨%d1, H1⟩, ⟨%d2, H2⟩, ⟨%d3, H3⟩, ⟨%d4, H4⟩⟩
    iapply ((kernelRun_B c (grid0.coords t) _ _ _ _ _ _ _ _ _ _ _ _ (fun hc => hz ((hcond0 t).mp hc)) (iblk m c 0 t) (iblk m c 1 t) (iblk m c 2 t) (iblk m c 3 t) (sup m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_B c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : (Pipeline.scopedRest spec0 c : sProp 𝕄) ⊢ (dats m 0 c).Φ 0 :=
  Idealize.SL.BI.Entails.refl _

/-- and after the last point the invariant gives it back: the scratch's named contents are forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val from rfl,
    PhiS_pos m c _ (by rw [Fin.val_last]; have : cfg0.N = 25 := N_0; omega), scopedRest_owns]
  iintro H; iexists _; iexact H

end Cert.Kernel.Hand

end
-- ==== Proof.K.Launch.lean ====
/-
  The launch of the kernel as printed's one pipelined region, whose windows 2 and 3 read one array (`adj`): the
  buffers behind the windows' arrays, each whole at the launch contents, dealt to the five windows — the shared
  array's full share halved between its two windows — and the run of @main from the launch memory, for any
  proof data that meets the body obligation and holds the arrays at those shares.
-/
import proofs.«119389_g1580547973936_cont_week2b_921_11_alg».proof.Proof.K.Base
import Idealize.ShloMosaic.Lib.Pipeline.Launch
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The launch element -/

/-- The rounds algebra's launch element: every staging cell's owner at round 0 and a duty token for every transfer
    the pipeline issues. -/
def u₀ : UR sig nD τ := initOf (Pipeline.cells cfgs cellOf_inj) (Pipeline.launchToks cfgs cellOf_inj)

/-! ## The arrays dealt to the windows -/

/-- The distinct buffers behind the five windows' arrays are `x`, `W`, `adj` and the result, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg2) ↦{fullShare} V main_arg2)
          ∗ (((c : Thread nD τ).loc main_arg1) ↦{fullShare} V main_arg1) ∗ (((c : Thread nD τ).loc main_v0) ↦{fullShare} V main_v0)) := by
  unfold Pipeline.arrBufs
  exact bigSep_eq_bigSepL_of_eq [main_arg0, main_arg2, main_arg1, main_v0] (by decide) (by decide) _

/-- The buffers behind the arrays, whole at the launch contents, make the pipeline's arrays at entry: `x`, `W` and
    the result each its window's at the full share, `adj`'s full share halved between windows 2 and 3. -/
theorem arrays_of_bufs (c : Dev nD) (dat : Dat τ (Elt F) Unit ℕ (UR sig nD τ) ℕ cfg0 c)
    (hq0 : dat.q 0 = fullShare) (hq1 : dat.q 1 = fullShare)
    (hq2 : dat.q 2 = fullShare.left) (hq3 : dat.q 3 = fullShare.right)
    (hA : ∀ w, dat.A w = V m c (Pipeline.arrRef spec0 w)) :
    (Pipeline.arrBufs spec0 c (V m c) : sProp 𝕄) ⊢ dat.arrays (dat.arrAt · 0) := by
  rw [arrBufs0_eq]
  unfold Dat.arrays
  rw [bigSep_W0]
  rw [(arr_whole0 0).set_eq_univ, (arr_whole0 1).set_eq_univ, (arr_whole0 2).set_eq_univ,
    (arr_whole0 4).set_eq_univ]
  rw [show dat.share 0 = fullShare from hq0, show dat.share 1 = fullShare from hq1,
    show dat.share 2 = fullShare.left from hq2, show dat.share 3 = fullShare.right from hq3,
    show dat.share 4 = fullShare from rfl]
  beta_reduce
  rw [show dat.arrAt 0 0 = V m c main_arg0 from hA 0, show dat.arrAt 1 0 = V m c main_arg2 from hA 1,
    show dat.arrAt 2 0 = V m c main_arg1 from hA 2, show dat.arrAt 3 0 = V m c main_arg1 from hA 3,
    show dat.arrAt 4 0 = V m c main_v0 from hA 4]
  iintro ⟨H0, H1, H2, H4⟩
  ihave H2 := (pointsTo_share (PosShare.mem_left_op_right fullShare)).1 $$ H2
  icases H2 with ⟨H2, H3⟩
  isplitl [H0]; · iexact H0
  isplitl [H1]; · iexact H1
  isplitl [H2]; · iexact H2
  isplitl [H3]; · iexact H3
  iexact H4

/-! ## The run -/

/-- At the compiled mesh, for any float values, from any memory with zero counters: for proof data that meets the body
    obligation, owes nothing, holds `x` and `W` whole and `adj` by halves, takes the launch contents for the arrays'
    entry contents and the scratch for its invariant's resource at both ends, every weakly fair execution of @main on
    the TensorCores terminates, and in every final state each window's array holds what the data computes it holds
    after the last write-back. -/
theorem run_of (ρ : Dev nD → PrngReg)
    (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq2 : ∀ c, (dats 0 c).q 2 = fullShare.left) (hq3 : ∀ c, (dats 0 c).q 3 = fullShare.right)
    (hq0 : ∀ c, (dats 0 c).q 0 = fullShare) (hq1 : ∀ c, (dats 0 c).q 1 = fullShare)
    (howed : ∀ c t, (dats 0 c).owed t = 0)
    (hA : ∀ c w, (dats 0 c).A w = V m c (Pipeline.arrRef spec0 w))
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) (s₀ m ρ)
      (fun r => ∀ (c : Dev nD) (w : Fin cfg0.W),
        r.2.mem ((spec0 w).arr.view.loc (c.tc : Thread nD τ)) = (dats 0 c).arrAt w cfg0.N) :=
  Pipeline.θ_run_region_noSem_shared cfgs dats () cellOf_inj (0 : Fin 1) winFacts₀0 emb₁ defs₀ Variants.none m ρ main
    (hbody := hbody) (hne := block_pos0) (harr := arr_whole0) (hstage := stage_whole0) (howed := howed)
    (u₀ := u₀) (hu₀ := BI.Entails.refl _)
    (V := fun c b => V m c b)
    (hmain := fun c Q => by
      have hm : main (F := F) c = .op (.customCall (Pipeline.entry 0) ()) fun _ => .ret ⟨⟩ := rfl
      rw [hm]
      exact wand_elim_left)
    (hsplit := fun c => arrays_of_bufs m c (dats 0 c) (hq0 c) (hq1 c) (hq2 c) (hq3 c) (hA c))
    (X := fun _ => iprop(emp)) (Y := fun _ => iprop(emp)) (Z := fun _ => iprop(emp))
    (hX := fun c => by
      rw [unscopedRest0_eq]
      exact Idealize.SL.BI.emp_sep_intro)
    (hin := fun c => Idealize.SL.BI.emp_sep_elim.trans (hin c))
    (hout := fun c => (hout c).trans Idealize.SL.BI.emp_sep_intro)
    (QY := fun _ _ => True)
    (hY := fun c s' => by
      iintro ⟨-, -, HS⟩
      imodintro
      isplitr
      · ipureintro; trivial
      · iexact HS)
    (hQ := fun _ h c w => (h c).1 w)

end Cert.Kernel.Hand

end
-- ==== Proof.K.Frame.lean ====
/-
  The run of the whole program and its frame: @main is the one pipelined region; from any memory with zero
  counters every weakly fair execution terminates, nothing faults, each array of the pipeline ends at what the
  proof data compute (an input array unchanged, the result array overwritten block by block), and so the three
  argument arrays end as they began.
-/
import proofs.«119389_g1580547973936_cont_week2b_921_11_alg».proof.Proof.K.Body
import proofs.«119389_g1580547973936_cont_week2b_921_11_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, with every array of the pipeline at the proof data's final contents. -/
theorem run_main : θ_run defs (onTc (τ := τ) (main (F := F))) (s₀ m ρ)
    (fun r => ∀ (c : Dev nD) (w : Fin cfg0.W), r.2.mem ((spec0 w).arr.view.loc (c.tc : Thread nD τ)) = (dats m 0 c).arrAt w cfg0.N) :=
  run_of m ρ (dats m) (fun c => (body_obligation m c).loose) (fun _ => rfl) (fun _ => rfl) (fun _ => rfl) (fun _ => rfl)
    (fun _ _ => rfl) (A_eq m) (hin m) (hout m)

/-- An input window's array ends at its entry contents. -/
theorem kept_arg0 (c : Dev nD) : (dats m 0 c).arrAt 0 cfg0.N = m ((c.tc : Thread nD τ).loc main_arg0) :=
  ((dats m 0 c).arrAt_in 0 rfl _).trans (A_eq m c 0)
theorem kept_arg2 (c : Dev nD) : (dats m 0 c).arrAt 1 cfg0.N = m ((c.tc : Thread nD τ).loc main_arg2) :=
  ((dats m 0 c).arrAt_in 1 rfl _).trans (A_eq m c 1)
theorem kept_arg1 (c : Dev nD) : (dats m 0 c).arrAt 2 cfg0.N = m ((c.tc : Thread nD τ).loc main_arg1) :=
  ((dats m 0 c).arrAt_in 2 rfl _).trans (A_eq m c 2)

/-- THE FRAME: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c 0).trans (kept_arg0 m c), (h c 2).trans (kept_arg1 m c), (h c 1).trans (kept_arg2 m c)⟩)
    (run_main m ρ)

end Cert.Kernel.Hand

end
-- ==== Proof.KI.Base.lean ====
/-
  The shared ground of the hand-written frame of the idealized kernel: a graph-convolution layer
  `out = adj · (x · W)` run as ONE pipelined region over 25 grid points. The region-entry contents of the
  four arrays, each window's block at a grid point read off its array, the staging memrefs a point is called
  with, and the one branch of the body (`program_id == 0`: the product `x · W` is computed once, at the first
  point, into a scratch buffer every later point reads), decided over the grid.
-/
import proofs.«119389_g1580547973936_cont_week2b_921_11_alg».proof.Proof.Gen.KernelIdeal.Launch
import proofs.«119389_g1580547973936_cont_week2b_921_11_alg».proof.Proof.Gen.KernelIdeal.Skeleton
import proofs.«119389_g1580547973936_cont_week2b_921_11_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and the windows' blocks -/

/-- Core `c`'s buffer contents when the region is entered: @main is the region alone, so the launch contents. -/
abbrev V (c : Dev nD) (b : Ref sig .tc) : Buf (Elt F) ((c : Thread nD τ).loc b) := m ((c : Thread nD τ).loc b)

/-- Window `w`'s block at point `t`, read off its array as the region finds it: all of `x` (window 0), all of
    `W` (window 1), rows `400 t … 400 t + 199` of `adj` (window 2), rows `400 t + 200 … 400 t + 399` of `adj`
    (window 3). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place: where the pipeline does not
    fetch, the block index has not moved. One statement per input window (the block's type is the window's own). -/
theorem before_in0_of {c : Dev nD} (dat : Dat τ (Elt F) Unit ℕ (UR sig nD τ) ℕ cfg0 c)
    (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c)
    (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c)
    (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

theorem before_in3_of {c : Dev nD} (dat : Dat τ (Elt F) Unit ℕ (UR sig nD τ) ℕ cfg0 c)
    (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)

/-! ## The body's branch -/

/-- The condition of the body's one `scf.if`: the grid coordinate is zero. -/
abbrev cond0 (i : grid0.Coords) : Prop :=
  (Scalar.cmpi .ne (Scalar.extui (Scalar.cmpi .eq (BitVec.ofNat 32 (i 0).val) 0#32)) 0#32) = 1#1
/-- It holds at the first grid point only. -/
theorem hcond0 : ∀ t : Fin cfg0.N, cond0 (grid0.coords t) ↔ t.val = 0 :=
  (by decide +kernel : ∀ t : Fin grid0.N, cond0 (grid0.coords t) ↔ t.val = 0)

/-! ## The memrefs a point is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The scratch operand that carries `x · W` from the first point to the later ones. -/
abbrev scM : Memref sig .tc .vmem S10000x128 .bf16 := Memref.whole cc0_scratch0
/-- One staging buffer of the output window and the scratch as views, through which their contents are stated. -/
abbrev VO : View sig .tc .vmem S400x128 .f32 := (Memref.whole cc0_stg4_0 : Memref sig .tc .vmem S400x128 .f32).view
abbrev VS : View sig .tc .vmem S10000x128 .bf16 := scM.view

/-- The core's scoped buffers that are no staging buffer: the scratch, owned whole at some contents. -/
theorem scopedRest_owns (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.KI.RunA.lean ====
/-
  The kernel body run whole at the FIRST grid point, where its one branch is taken: it loads all of `x` and `W`,
  stores their product into the scratch, then loads the two row blocks of `adj`, reads the scratch back twice and
  stores the two products into the upper and lower halves of the output block. The stores each buffer ends with
  are found by the run, as lists of pieces.
-/
import proofs.«119389_g1580547973936_cont_week2b_921_11_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the four input blocks at their contents, the output block and the scratch at anything — the
    body at a point where the branch is taken runs to its continuation holding the inputs as they were and the
    output block and the scratch with the found pieces written. -/
noncomputable def kernelRun_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) :
    Σ' (L4 : List (View.Piece (Elt F) S400x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact HS

end Cert.KernelIdeal.Hand

end
-- ==== Proof.KI.RunB.lean ====
/-
  The kernel body run whole at a LATER grid point, where its one branch is not taken: it loads the two row blocks
  of `adj`, reads the scratch (which still holds the product the first point stored) twice and stores the two
  products into the upper and lower halves of the output block; the scratch is read, never written.
-/
import proofs.«119389_g1580547973936_cont_week2b_921_11_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the four input blocks and the scratch at their contents, the output block at anything — the
    body at a point where the branch is not taken runs to its continuation holding the inputs and the scratch as
    they were and the output block with the found pieces written. -/
noncomputable def kernelRun_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : ¬cond0 i)
    (x0 : Vec F S10000x128 .f32) (x1 : Vec F S128x128 .f32) (x2 : Vec F S200x10000 .f32) (x3 : Vec F S200x10000 .f32)
    (xs : Vec F S10000x128 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3
    obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; isplitr; · ipureintro; exact harg6.read_unread _
    iexact HS

end Cert.KernelIdeal.Hand

end
-- ==== Proof.KI.Body.lean ====
/-
  The body obligation of the one pipelined region. At the first grid point the body stores the product `x · W`
  into the scratch and the two row-block products into the output block; at every later point it reads the scratch
  the first point left and stores the two row-block products. So the region invariant tracks the scratch: anything
  before the first point, the first point's product ever after. The proof data name, point by point, what the body
  leaves in each staging buffer: each input's block as it found it, the output block at the case's stores read
  back.
-/
import proofs.«119389_g1580547973936_cont_week2b_921_11_alg».proof.Proof.KI.RunA
import proofs.«119389_g1580547973936_cont_week2b_921_11_alg».proof.Proof.KI.RunB
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ)

/-! ## What each case leaves -/

/-- The first point's two stores into the output block tile it. -/
theorem cover_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) (y : S400x128.Idx) :
    ∃ pc ∈ (kernelRun_A c i arg1 harg1 arg2 harg2 arg3 harg3 arg4 harg4 arg5 harg5 arg6 harg6 hc x0 x1 x2 x3).1, y ∈ pc.1.set :=
  View.cover_of_tiledL (kernelRun_A c i arg1 harg1 arg2 harg2 arg3 harg3 arg4 harg4 arg5 harg5 arg6 harg6 hc x0 x1 x2 x3).1 S200x128.size (by sl_kernel_rfl) y

/-- Its one store into the scratch covers it. -/
theorem scover_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) (y : S10000x128.Idx) :
    ∃ pc ∈ (kernelRun_A c i arg1 harg1 arg2 harg2 arg3 harg3 arg4 harg4 arg5 harg5 arg6 harg6 hc x0 x1 x2 x3).2.1, y ∈ pc.1.set :=
  View.cover_of_tiledL (kernelRun_A c i arg1 harg1 arg2 harg2 arg3 harg3 arg4 harg4 arg5 harg5 arg6 harg6 hc x0 x1 x2 x3).2.1 S10000x128.size (by sl_kernel_rfl) y

/-- A later point's two stores into the output block tile it. -/
theorem cover_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : ¬cond0 i)
    (x0 : Vec F S10000x128 .f32) (x1 : Vec F S128x128 .f32) (x2 : Vec F S200x10000 .f32) (x3 : Vec F S200x10000 .f32) (xs : Vec F S10000x128 .bf16) (y : S400x128.Idx) :
    ∃ pc ∈ (kernelRun_B c i arg1 harg1 arg2 harg2 arg3 harg3 arg4 harg4 arg5 harg5 arg6 harg6 hc x0 x1 x2 x3 xs).1, y ∈ pc.1.set :=
  View.cover_of_tiledL (kernelRun_B c i arg1 harg1 arg2 harg2 arg3 harg3 arg4 harg4 arg5 harg5 arg6 harg6 hc x0 x1 x2 x3 xs).1 S200x128.size (by sl_kernel_rfl) y

/-- What the first point leaves in the output block: its stores read back. -/
def out_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) : Vec F S400x128 .f32 :=
  VO.read (Elt F) (VO.writes (Elt F) VO.junk (kernelRun_A c i arg1 harg1 arg2 harg2 arg3 harg3 arg4 harg4 arg5 harg5 arg6 harg6 hc x0 x1 x2 x3).1)

/-- What the first point leaves in the scratch: its store read back. -/
def sout_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) : Vec F S10000x128 .bf16 :=
  VS.read (Elt F) (VS.writes (Elt F) VS.junk (kernelRun_A c i arg1 harg1 arg2 harg2 arg3 harg3 arg4 harg4 arg5 harg5 arg6 harg6 hc x0 x1 x2 x3).2.1)

/-- What a later point leaves in the output block, the scratch holding `xs`: its stores read back. -/
def out_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : ¬cond0 i)
    (x0 : Vec F S10000x128 .f32) (x1 : Vec F S128x128 .f32) (x2 : Vec F S200x10000 .f32) (x3 : Vec F S200x10000 .f32) (xs : Vec F S10000x128 .bf16) : Vec F S400x128 .f32 :=
  VO.read (Elt F) (VO.writes (Elt F) VO.junk (kernelRun_B c i arg1 harg1 arg2 harg2 arg3 harg3 arg4 harg4 arg5 harg5 arg6 harg6 hc x0 x1 x2 x3 xs).1)

/-! ## Point by point -/

/-- The first grid point. -/
def t0 : Fin cfg0.N := ⟨0, by rw [show cfg0.N = 25 from N_0]; decide⟩

/-- What the scratch holds from the first point on: the first point's store (the product `x · W`). -/
def sup (c : Dev nD) : Vec F S10000x128 .bf16 :=
  sout_A c (grid0.coords t0) (ms0 t0) (hs0 t0) (ms1 t0) (hs1 t0) (ms2 t0) (hs2 t0) (ms3 t0) (hs3 t0) (ms4 t0) (hs4 t0) scM (Memref.isWhole_whole _) ((hcond0 t0).mpr rfl) (iblk m c 0 t0) (iblk m c 1 t0) (iblk m c 2 t0) (iblk m c 3 t0)

/-- What the body leaves in the output block at point `t`. -/
def outAt (c : Dev nD) (t : Fin cfg0.N) : Vec F S400x128 .f32 :=
  if h : t.val = 0 then
    out_A c (grid0.coords t) (ms0 t) (hs0 t) (ms1 t) (hs1 t) (ms2 t) (hs2 t) (ms3 t) (hs3 t) (ms4 t) (hs4 t) scM (Memref.isWhole_whole _) ((hcond0 t).mpr h) (iblk m c 0 t) (iblk m c 1 t) (iblk m c 2 t) (iblk m c 3 t)
  else
    out_B c (grid0.coords t) (ms0 t) (hs0 t) (ms1 t) (hs1 t) (ms2 t) (hs2 t) (ms3 t) (hs3 t) (ms4 t) (hs4 t) scM (Memref.isWhole_whole _) (fun hc => h ((hcond0 t).mp hc)) (iblk m c 0 t) (iblk m c 1 t) (iblk m c 2 t) (iblk m c 3 t) (sup m c)

theorem outAt_first (c : Dev nD) (t : Fin cfg0.N) (h : t.val = 0) :
    outAt m c t = out_A c (grid0.coords t) (ms0 t) (hs0 t) (ms1 t) (hs1 t) (ms2 t) (hs2 t) (ms3 t) (hs3 t) (ms4 t) (hs4 t) scM (Memref.isWhole_whole _) ((hcond0 t).mpr h) (iblk m c 0 t) (iblk m c 1 t) (iblk m c 2 t) (iblk m c 3 t) := dif_pos h

theorem outAt_later (c : Dev nD) (t : Fin cfg0.N) (h : ¬t.val = 0) :
    outAt m c t = out_B c (grid0.coords t) (ms0 t) (hs0 t) (ms1 t) (hs1 t) (ms2 t) (hs2 t) (ms3 t) (hs3 t) (ms4 t) (hs4 t) scM (Memref.isWhole_whole _) (fun hc => h ((hcond0 t).mp hc)) (iblk m c 0 t) (iblk m c 1 t) (iblk m c 2 t) (iblk m c 3 t) (sup m c) := dif_neg h

/-- The region invariant before position `n`: before the first point the scratch at anything; afterwards the
    scratch at the first point's product. -/
def PhiS (c : Dev nD) : ℕ → sProp 𝕄
  | 0 => Pipeline.scopedRest spec0 c
  | _ + 1 => owns (c : Thread nD τ) scM fullShare (sup m c)

theorem PhiS_pos (c : Dev nD) (n : ℕ) (hz : n ≠ 0) : PhiS m c n = owns (c : Thread nD τ) scM fullShare (sup m c) := by
  cases n with
  | zero => exact absurd rfl hz
  | succ n => rfl

/-! ## The proof data -/

/-- The proof data of the pipeline on core `c`: the arrays as the region finds them; after the body at point `t`
    each input's buffer at its block and the output's at `outAt`; the invariant `PhiS`; nothing owed; `adj`, read
    through two windows, held by halves, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; at the first point the scratch holds anything and
    is left at the product, at a later point it holds the product and is left so; the output block is left at the
    case's stores read back; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).Φ t.succ = owns (c : Thread nD τ) scM fullShare (sup m c) from rfl]
  by_cases hz : t.val = 0
  · obtain rfl : t = t0 := Fin.ext hz
    rw [show (dats m 0 c).Φ (t0 : Fin cfg0.N).castSucc = Pipeline.scopedRest spec0 c from rfl, scopedRest_owns]
    rw [outAt_first m c t0 rfl]
    unfold out_A sup sout_A
    iintro ⟨HS, Ho, ⟨%d0, H0⟩, ⟨%d1, H1⟩, ⟨%d2, H2⟩, ⟨%d3, H3⟩, ⟨%d4, H4⟩⟩
    iapply ((kernelRun_A c (grid0.coords t0) _ _ _ _ _ _ _ _ _ _ _ _ ((hcond0 t0).mpr rfl) (iblk m c 0 t0) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (scover_A c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_A c _ _ _ _ _ _ _ _ _ _ _ _ _ _ _ _ _ _)
  · rw [show (dats m 0 c).Φ t.castSucc = PhiS m c t.val from rfl, PhiS_pos m c _ hz]
    rw [outAt_later m c t hz]
    unfold out_B
    iintro ⟨HS, Ho, ⟨%d0, H0⟩, ⟨%d1, H1⟩, ⟨%d2, H2⟩, ⟨%d3, H3⟩, ⟨%d4, H4⟩⟩
    iapply ((kernelRun_B c (grid0.coords t) _ _ _ _ _ _ _ _ _ _ _ _ (fun hc => hz ((hcond0 t).mp hc)) (iblk m c 0 t) (iblk m c 1 t) (iblk m c 2 t) (iblk m c 3 t) (sup m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_B c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : (Pipeline.scopedRest spec0 c : sProp 𝕄) ⊢ (dats m 0 c).Φ 0 :=
  Idealize.SL.BI.Entails.refl _

/-- and after the last point the invariant gives it back: the scratch's named contents are forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val from rfl,
    PhiS_pos m c _ (by rw [Fin.val_last]; have : cfg0.N = 25 := N_0; omega), scopedRest_owns]
  iintro H; iexists _; iexact H

end Cert.KernelIdeal.Hand

end
-- ==== Proof.KI.Launch.lean ====
/-
  The launch of the idealized kernel's one pipelined region, whose windows 2 and 3 read one array (`adj`): the
  buffers behind the windows' arrays, each whole at the launch contents, dealt to the five windows — the shared
  array's full share halved between its two windows — and the run of @main from the launch memory, for any
  proof data that meets the body obligation and holds the arrays at those shares.
-/
import proofs.«119389_g1580547973936_cont_week2b_921_11_alg».proof.Proof.KI.Base
import Idealize.ShloMosaic.Lib.Pipeline.Launch
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The launch element -/

/-- The rounds algebra's launch element: every staging cell's owner at round 0 and a duty token for every transfer
    the pipeline issues. -/
def u₀ : UR sig nD τ := initOf (Pipeline.cells cfgs cellOf_inj) (Pipeline.launchToks cfgs cellOf_inj)

/-! ## The arrays dealt to the windows -/

/-- The distinct buffers behind the five windows' arrays are `x`, `W`, `adj` and the result, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg2) ↦{fullShare} V main_arg2)
          ∗ (((c : Thread nD τ).loc main_arg1) ↦{fullShare} V main_arg1) ∗ (((c : Thread nD τ).loc main_v0) ↦{fullShare} V main_v0)) := by
  unfold Pipeline.arrBufs
  exact bigSep_eq_bigSepL_of_eq [main_arg0, main_arg2, main_arg1, main_v0] (by decide) (by decide) _

/-- The buffers behind the arrays, whole at the launch contents, make the pipeline's arrays at entry: `x`, `W` and
    the result each its window's at the full share, `adj`'s full share halved between windows 2 and 3. -/
theorem arrays_of_bufs (c : Dev nD) (dat : Dat τ (Elt F) Unit ℕ (UR sig nD τ) ℕ cfg0 c)
    (hq0 : dat.q 0 = fullShare) (hq1 : dat.q 1 = fullShare)
    (hq2 : dat.q 2 = fullShare.left) (hq3 : dat.q 3 = fullShare.right)
    (hA : ∀ w, dat.A w = V m c (Pipeline.arrRef spec0 w)) :
    (Pipeline.arrBufs spec0 c (V m c) : sProp 𝕄) ⊢ dat.arrays (dat.arrAt · 0) := by
  rw [arrBufs0_eq]
  unfold Dat.arrays
  rw [bigSep_W0]
  rw [(arr_whole0 0).set_eq_univ, (arr_whole0 1).set_eq_univ, (arr_whole0 2).set_eq_univ,
    (arr_whole0 4).set_eq_univ]
  rw [show dat.share 0 = fullShare from hq0, show dat.share 1 = fullShare from hq1,
    show dat.share 2 = fullShare.left from hq2, show dat.share 3 = fullShare.right from hq3,
    show dat.share 4 = fullShare from rfl]
  beta_reduce
  rw [show dat.arrAt 0 0 = V m c main_arg0 from hA 0, show dat.arrAt 1 0 = V m c main_arg2 from hA 1,
    show dat.arrAt 2 0 = V m c main_arg1 from hA 2, show dat.arrAt 3 0 = V m c main_arg1 from hA 3,
    show dat.arrAt 4 0 = V m c main_v0 from hA 4]
  iintro ⟨H0, H1, H2, H4⟩
  ihave H2 := (pointsTo_share (PosShare.mem_left_op_right fullShare)).1 $$ H2
  icases H2 with ⟨H2, H3⟩
  isplitl [H0]; · iexact H0
  isplitl [H1]; · iexact H1
  isplitl [H2]; · iexact H2
  isplitl [H3]; · iexact H3
  iexact H4

/-! ## The run -/

/-- At the compiled mesh, for any float values, from any memory with zero counters: for proof data that meets the body
    obligation, owes nothing, holds `x` and `W` whole and `adj` by halves, takes the launch contents for the arrays'
    entry contents and the scratch for its invariant's resource at both ends, every weakly fair execution of @main on
    the TensorCores terminates, and in every final state each window's array holds what the data computes it holds
    after the last write-back. -/
theorem run_of (ρ : Dev nD → PrngReg)
    (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq2 : ∀ c, (dats 0 c).q 2 = fullShare.left) (hq3 : ∀ c, (dats 0 c).q 3 = fullShare.right)
    (hq0 : ∀ c, (dats 0 c).q 0 = fullShare) (hq1 : ∀ c, (dats 0 c).q 1 = fullShare)
    (howed : ∀ c t, (dats 0 c).owed t = 0)
    (hA : ∀ c w, (dats 0 c).A w = V m c (Pipeline.arrRef spec0 w))
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) (s₀ m ρ)
      (fun r => ∀ (c : Dev nD) (w : Fin cfg0.W),
        r.2.mem ((spec0 w).arr.view.loc (c.tc : Thread nD τ)) = (dats 0 c).arrAt w cfg0.N) :=
  Pipeline.θ_run_region_noSem_shared cfgs dats () cellOf_inj (0 : Fin 1) winFacts₀0 emb₁ defs₀ Variants.none m ρ main
    (hbody := hbody) (hne := block_pos0) (harr := arr_whole0) (hstage := stage_whole0) (howed := howed)
    (u₀ := u₀) (hu₀ := BI.Entails.refl _)
    (V := fun c b => V m c b)
    (hmain := fun c Q => by
      have hm : main (F := F) c = .op (.customCall (Pipeline.entry 0) ()) fun _ => .ret ⟨⟩ := rfl
      rw [hm]
      exact wand_elim_left)
    (hsplit := fun c => arrays_of_bufs m c (dats 0 c) (hq0 c) (hq1 c) (hq2 c) (hq3 c) (hA c))
    (X := fun _ => iprop(emp)) (Y := fun _ => iprop(emp)) (Z := fun _ => iprop(emp))
    (hX := fun c => by
      rw [unscopedRest0_eq]
      exact Idealize.SL.BI.emp_sep_intro)
    (hin := fun c => Idealize.SL.BI.emp_sep_elim.trans (hin c))
    (hout := fun c => (hout c).trans Idealize.SL.BI.emp_sep_intro)
    (QY := fun _ _ => True)
    (hY := fun c s' => by
      iintro ⟨-, -, HS⟩
      imodintro
      isplitr
      · ipureintro; trivial
      · iexact HS)
    (hQ := fun _ h c w => (h c).1 w)

end Cert.KernelIdeal.Hand

end
-- ==== Proof.KI.Frame.lean ====
/-
  The run of the whole program and its frame: @main is the one pipelined region; from any memory with zero
  counters every weakly fair execution terminates, nothing faults, each array of the pipeline ends at what the
  proof data compute (an input array unchanged, the result array overwritten block by block), and so the three
  argument arrays end as they began.
-/
import proofs.«119389_g1580547973936_cont_week2b_921_11_alg».proof.Proof.KI.Body
import proofs.«119389_g1580547973936_cont_week2b_921_11_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, with every array of the pipeline at the proof data's final contents. -/
theorem run_main : θ_run defs (onTc (τ := τ) (main (F := F))) (s₀ m ρ)
    (fun r => ∀ (c : Dev nD) (w : Fin cfg0.W), r.2.mem ((spec0 w).arr.view.loc (c.tc : Thread nD τ)) = (dats m 0 c).arrAt w cfg0.N) :=
  run_of m ρ (dats m) (fun c => (body_obligation m c).loose) (fun _ => rfl) (fun _ => rfl) (fun _ => rfl) (fun _ => rfl)
    (fun _ _ => rfl) (A_eq m) (hin m) (hout m)

/-- An input window's array ends at its entry contents. -/
theorem kept_arg0 (c : Dev nD) : (dats m 0 c).arrAt 0 cfg0.N = m ((c.tc : Thread nD τ).loc main_arg0) :=
  ((dats m 0 c).arrAt_in 0 rfl _).trans (A_eq m c 0)
theorem kept_arg2 (c : Dev nD) : (dats m 0 c).arrAt 1 cfg0.N = m ((c.tc : Thread nD τ).loc main_arg2) :=
  ((dats m 0 c).arrAt_in 1 rfl _).trans (A_eq m c 1)
theorem kept_arg1 (c : Dev nD) : (dats m 0 c).arrAt 2 cfg0.N = m ((c.tc : Thread nD τ).loc main_arg1) :=
  ((dats m 0 c).arrAt_in 2 rfl _).trans (A_eq m c 2)

/-- THE FRAME: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c 0).trans (kept_arg0 m c), (h c 2).trans (kept_arg1 m c), (h c 1).trans (kept_arg2 m c)⟩)
    (run_main m ρ)

end Cert.KernelIdeal.Hand

end
-- ==== Proof.KI.Pieces.lean ====
/-
  The stores each case of the body was found to make, opened into the body's arithmetic. At the first grid point the
  scratch is left at the product `x · W` whole, and the two loads of the scratch that follow read that product back;
  at every point the output block is left, rows 0–199, at the first row block of `adj` times the scratch and,
  rows 200–399, at the second row block times the scratch.
-/
import proofs.«119389_g1580547973936_cont_week2b_921_11_alg».proof.Proof.KI.Body
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-shape rectangle of rank two. -/
theorem hz2 : (![0, 0] : Fin 2 → Nat) = fun _ => 0 := funext fun a => by fin_cases a <;> rfl

/-! ## Two stores that tile the 400-row block by halves, read at an index -/

/-- Row `200 + p` of the block is row `p` of the upper-half rectangle. -/
theorem hi_emb (p : Fin 200) (j : Fin 128) :
    (Rect.unit (s := S400x128) ![200, 0] S200x128.size inb_S400x128_S200x128_200_0).emb (ValueIdx.ix2 p j)
      = ValueIdx.ix2 (n0 := 400) (n1 := 128) ⟨200 + p.val, by omega⟩ j :=
  funext fun a => Fin.ext (by
    match a with
    | ⟨0, _⟩ => show 200 + 1 * p.val = 200 + p.val; omega
    | ⟨1, _⟩ => show 0 + 1 * j.val = j.val; omega)

/-- Row `p` of the block is row `p` of the lower-half rectangle. -/
theorem lo_emb (p : Fin 200) (j : Fin 128) :
    (Rect.unit (s := S400x128) ![0, 0] S200x128.size inb_S400x128_S200x128_0_0).emb (ValueIdx.ix2 p j)
      = ValueIdx.ix2 (n0 := 400) (n1 := 128) ⟨p.val, by omega⟩ j :=
  funext fun a => Fin.ext (by
    match a with
    | ⟨0, _⟩ => show 0 + 1 * p.val = p.val; omega
    | ⟨1, _⟩ => show 0 + 1 * j.val = j.val; omega)

/-- A row below 200 is not in the upper-half rectangle. -/
theorem lo_not_mem_hi (p : Fin 200) (j : Fin 128) :
    ValueIdx.ix2 (n0 := 400) (n1 := 128) ⟨p.val, by omega⟩ j ∉ (Rect.unit (s := S400x128) ![200, 0] S200x128.size inb_S400x128_S200x128_200_0).set := by
  rw [Rect.mem_set_unit]
  intro h
  have h0 : 200 ≤ p.val := (h 0).1
  omega

/-- The upper half stored last over the lower half: rows 200–399 read the upper store, -/
theorem canon_halves_hi (wh wl : FVec F S200x128 .f32) (p : Fin 200) (j : Fin 128) :
    View.canon (Val := Elt F) [(⟨Rect.unit (s := S400x128) ![200, 0] S200x128.size inb_S400x128_S200x128_200_0, wh⟩ : View.Piece (Elt F) S400x128 .f32), ⟨Rect.unit (s := S400x128) ![0, 0] S200x128.size inb_S400x128_S200x128_0_0, wl⟩]
        (ValueIdx.ix2 (n0 := 400) (n1 := 128) ⟨200 + p.val, by omega⟩ j) = wh (ValueIdx.ix2 p j) := by
  rw [← hi_emb p j]
  exact View.canon_cons_emb (Val := Elt F) (Rect.unit (s := S400x128) ![200, 0] S200x128.size inb_S400x128_S200x128_200_0) wh
    [(⟨Rect.unit (s := S400x128) ![0, 0] S200x128.size inb_S400x128_S200x128_0_0, wl⟩ : View.Piece (Elt F) S400x128 .f32)] (ValueIdx.ix2 p j)

/-- and rows 0–199 the lower one. -/
theorem canon_halves_lo (wh wl : FVec F S200x128 .f32) (p : Fin 200) (j : Fin 128) :
    View.canon (Val := Elt F) [(⟨Rect.unit (s := S400x128) ![200, 0] S200x128.size inb_S400x128_S200x128_200_0, wh⟩ : View.Piece (Elt F) S400x128 .f32), ⟨Rect.unit (s := S400x128) ![0, 0] S200x128.size inb_S400x128_S200x128_0_0, wl⟩]
        (ValueIdx.ix2 (n0 := 400) (n1 := 128) ⟨p.val, by omega⟩ j) = wl (ValueIdx.ix2 p j) := by
  rw [View.canon_cons_of_not_mem (Val := Elt F) (⟨Rect.unit (s := S400x128) ![200, 0] S200x128.size inb_S400x128_S200x128_200_0, wh⟩ : View.Piece (Elt F) S400x128 .f32)
    [(⟨Rect.unit (s := S400x128) ![0, 0] S200x128.size inb_S400x128_S200x128_0_0, wl⟩ : View.Piece (Elt F) S400x128 .f32)] (lo_not_mem_hi p j), ← lo_emb p j]
  exact View.canon_cons_emb (Val := Elt F) (e := .f32) (Rect.unit (s := S400x128) ![0, 0] S200x128.size inb_S400x128_S200x128_0_0) wl [] (ValueIdx.ix2 p j)

/-! ## The first grid point -/

/-- The scratch after the first point is the product `x · W`. -/
theorem sout_A_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) :
    sout_A c i arg1 harg1 arg2 harg2 arg3 harg3 arg4 harg4 arg5 harg5 arg6 harg6 hc x0 x1 x2 x3 = k0_pay1 x0 x1 := by
  unfold sout_A
  rw [View.read_writes_junk_eq_canon]
  unfold kernelRun_A
  dsimp only
  sl_unfold_words
  rw [View.canon_unit_zero hz2]
  simp only [View.readAt_eq_ld, Memref.IsWhole.read_unread, View.ld_unit_zero (S := S10000x128) hz2,
    View.ld_unit_zero (S := S128x128) hz2]

/-- The output block after the first point: the two stores, each over the product just stored in the scratch. -/
theorem out_A_canon (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) :
    out_A c i arg1 harg1 arg2 harg2 arg3 harg3 arg4 harg4 arg5 harg5 arg6 harg6 hc x0 x1 x2 x3
      = View.canon (Val := Elt F) [(⟨Rect.unit (s := S400x128) ![200, 0] S200x128.size inb_S400x128_S200x128_200_0, k0_pay3 x3 (k0_pay1 x0 x1)⟩ : View.Piece (Elt F) S400x128 .f32),
          ⟨Rect.unit (s := S400x128) ![0, 0] S200x128.size inb_S400x128_S200x128_0_0, k0_pay2 x2 (k0_pay1 x0 x1)⟩] := by
  unfold out_A
  rw [View.read_writes_junk_eq_canon]
  unfold kernelRun_A
  dsimp only
  sl_unfold_words
  simp only [View.readAt_eq_ld, Memref.IsWhole.read_unread, View.ld_unit_zero (S := S10000x128) hz2,
    View.ld_unit_zero (S := S128x128) hz2, View.ld_unit_zero (S := S200x10000) hz2,
    View.readCov_unit_zero (S := S10000x128) _ hz2]

theorem out_A_lo (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) (p : Fin 200) (j : Fin 128) :
    out_A c i arg1 harg1 arg2 harg2 arg3 harg3 arg4 harg4 arg5 harg5 arg6 harg6 hc x0 x1 x2 x3 (ValueIdx.ix2 (n0 := 400) (n1 := 128) ⟨p.val, by omega⟩ j)
      = k0_pay2 x2 (k0_pay1 x0 x1) (ValueIdx.ix2 p j) := by
  rw [out_A_canon]
  exact canon_halves_lo _ _ p j

theorem out_A_hi (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : cond0 i)
    (x0 : Vec F S10000x128 .f32) (x1 : Vec F S128x128 .f32) (x2 : Vec F S200x10000 .f32) (x3 : Vec F S200x10000 .f32) (p : Fin 200) (j : Fin 128) :
    out_A c i arg1 harg1 arg2 harg2 arg3 harg3 arg4 harg4 arg5 harg5 arg6 harg6 hc x0 x1 x2 x3 (ValueIdx.ix2 (n0 := 400) (n1 := 128) ⟨200 + p.val, by omega⟩ j)
      = k0_pay3 x3 (k0_pay1 x0 x1) (ValueIdx.ix2 p j) := by
  rw [out_A_canon]
  exact canon_halves_hi _ _ p j

/-! ## A later grid point -/

/-- The output block after a later point: the two stores, each over what the scratch holds. -/
theorem out_B_canon (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : ¬cond0 i)
    (x0 : Vec F S10000x128 .f32) (x1 : Vec F S128x128 .f32) (x2 : Vec F S200x10000 .f32) (x3 : Vec F S200x10000 .f32) (xs : Vec F S10000x128 .bf16) :
    out_B c i arg1 harg1 arg2 harg2 arg3 harg3 arg4 harg4 arg5 harg5 arg6 harg6 hc x0 x1 x2 x3 xs
      = View.canon (Val := Elt F) [(⟨Rect.unit (s := S400x128) ![200, 0] S200x128.size inb_S400x128_S200x128_200_0, k0_pay3 x3 xs⟩ : View.Piece (Elt F) S400x128 .f32),
          ⟨Rect.unit (s := S400x128) ![0, 0] S200x128.size inb_S400x128_S200x128_0_0, k0_pay2 x2 xs⟩] := by
  unfold out_B
  rw [View.read_writes_junk_eq_canon]
  unfold kernelRun_B
  dsimp only
  sl_unfold_words
  simp only [View.readAt_eq_ld, Memref.IsWhole.read_unread, View.ld_unit_zero (S := S10000x128) hz2,
    View.ld_unit_zero (S := S200x10000) hz2]

theorem out_B_lo (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : ¬cond0 i)
    (x0 : Vec F S10000x128 .f32) (x1 : Vec F S128x128 .f32) (x2 : Vec F S200x10000 .f32) (x3 : Vec F S200x10000 .f32) (xs : Vec F S10000x128 .bf16) (p : Fin 200) (j : Fin 128) :
    out_B c i arg1 harg1 arg2 harg2 arg3 harg3 arg4 harg4 arg5 harg5 arg6 harg6 hc x0 x1 x2 x3 xs (ValueIdx.ix2 (n0 := 400) (n1 := 128) ⟨p.val, by omega⟩ j)
      = k0_pay2 x2 xs (ValueIdx.ix2 p j) := by
  rw [out_B_canon]
  exact canon_halves_lo _ _ p j

theorem out_B_hi (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : ¬cond0 i)
    (x0 : Vec F S10000x128 .f32) (x1 : Vec F S128x128 .f32) (x2 : Vec F S200x10000 .f32) (x3 : Vec F S200x10000 .f32) (xs : Vec F S10000x128 .bf16) (p : Fin 200) (j : Fin 128) :
    out_B c i arg1 harg1 arg2 harg2 arg3 harg3 arg4 harg4 arg5 harg5 arg6 harg6 hc x0 x1 x2 x3 xs (ValueIdx.ix2 (n0 := 400) (n1 := 128) ⟨200 + p.val, by omega⟩ j)
      = k0_pay3 x3 xs (ValueIdx.ix2 p j) := by
  rw [out_B_canon]
  exact canon_halves_hi _ _ p j

end Cert.KernelIdeal.Hand

end
-- ==== Proof.Spec.lean ====
/-
  What both programs compute, as ONE function of the three argument arrays over the extended reals: a
  graph-convolution layer, `out = adj · (x · W)`,

      out[r, j] = Σ_k adj[r, k] · (Σ_l x[k, l] · W[l, j]),      r < 10000, k < 10000, l < 128, j < 128.

  The inner sum is the "support" `x · W`; the kernel computes it once (at its first grid point) and keeps it, the
  reference computes it as a first matrix product. No law of arithmetic is needed to join the two sides: the
  kernel's row blocks are rows of the same sums.
-/
import Idealize.ShloMosaic.PureOps.Ideal
import Idealize.ShloMosaic.Lib.ValueIdx

noncomputable section

open scoped BigOperators

namespace Cert.Spec

open Idealize.ShloMosaic Idealize.ShloMosaic.ValueIdx

/-- The shapes of `x` (and of the result), of `adj` and of `W`. -/
abbrev SX : Shape := ⟨2, ![10000, 128]⟩
abbrev SA : Shape := ⟨2, ![10000, 10000]⟩
abbrev SW : Shape := ⟨2, ![128, 128]⟩

/-- The support `x · W` at row `k`, column `j`. -/
def support (x : SX.Idx → EReal) (w : SW.Idx → EReal) (k : Fin 10000) (j : Fin 128) : EReal :=
  ∑ l : Fin 128, x (ix2 k l) * w (ix2 l j)

/-- The layer's result at row `r`, column `j`. -/
def gcnAt (x : SX.Idx → EReal) (adj : SA.Idx → EReal) (w : SW.Idx → EReal) (r : Fin 10000) (j : Fin 128) : EReal :=
  ∑ k : Fin 10000, adj (ix2 r k) * support x w k j

/-- The layer's result as an array. -/
def gcn (x : SX.Idx → EReal) (adj : SA.Idx → EReal) (w : SW.Idx → EReal) : SX.Idx → EReal :=
  fun i => gcnAt x adj w (i 0) (i 1)

theorem gcn_ix2 (x : SX.Idx → EReal) (adj : SA.Idx → EReal) (w : SW.Idx → EReal) (r : Fin 10000) (j : Fin 128) :
    gcn x adj w (ix2 r j) = gcnAt x adj w r j := rfl

end Cert.Spec

end
-- ==== Proof.KI.Payload.lean ====
/-
  The arithmetic of the kernel's body, read at an index over the extended reals. There a narrowing of a float is
  the identity, a reshape to the same shape is the identity, and a matrix product into a zero accumulator is the
  plain finite sum over the contracted axis. So the first payload is the support `x · W` of the specification,
  and the second and third are a block of rows of `adj` times the kept support.
-/
import proofs.«119389_g1580547973936_cont_week2b_921_11_alg».proof.Proof.Gen.KernelIdeal.Skeleton
import proofs.«119389_g1580547973936_cont_week2b_921_11_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Hand

open Cert.KernelIdeal Cert.KernelIdeal.Gen
open Idealize.ShloMosaic Idealize.ShloMosaic.ValueIdx

/-! ## The operand indices of the product `x · W` -/

theorem lhs_xw_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

theorem lhs_xw_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

theorem rhs_xw_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

theorem rhs_xw_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-! ## The operand indices of the product of a block of `adj` with the support -/

theorem lhs_as_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide),
    dif_pos (show (0 : Fin S200x10000.rank) ∈ dot_S200x10000_S10000x128_S200x128_1_0_0_1_n_n.lhsNonContracting by decide)]
  rfl

theorem lhs_as_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q

theorem rhs_as_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q

theorem rhs_as_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide),
    dif_pos (show (1 : Fin S10000x128.rank) ∈ dot_S200x10000_S10000x128_S200x128_1_0_0_1_n_n.rhsNonContracting by decide)]
  rfl

/-! ## The two products into a zero accumulator, as sums over the contracted coordinate -/

/-- `x · W` into zero at row `k`, column `j`: the sum over the 128 shared coordinates. -/
theorem mm_xw_apply (x : FVec Ideal S10000x128 .bf16) (w : FVec Ideal S128x128 .bf16) (k : Fin 10000) (j : Fin 128) :
    FloatOps.matmul dot_S10000x128_S128x128_S10000x128_1_0_0_1_n_n none x w (constant S10000x128 .f32 0x00000000#32) (ix2 k j)
      = ∑ l : Fin 128, x (ix2 k l) * w (ix2 l j) := by
  rw [Ideal.matmul_constant_zero_apply, ← Equiv.sum_comp (ValueIdx.contrEquiv1 dot_S10000x128_S128x128_S10000x128_1_0_0_1_n_n 128 rfl rfl).symm]
  refine Finset.sum_congr rfl fun l _ => ?_
  have hl := ValueIdx.contrEquiv1_symm_val dot_S10000x128_S128x128_S10000x128_1_0_0_1_n_n 128 rfl rfl l
  have el : dot_S10000x128_S128x128_S10000x128_1_0_0_1_n_n.lhsIdx (ix2 k j) ((ValueIdx.contrEquiv1 dot_S10000x128_S128x128_S10000x128_1_0_0_1_n_n 128 rfl rfl).symm l) = ix2 k l :=
    funext fun a => Fin.ext (by
      match a with
      | ⟨0, _⟩ => exact lhs_xw_0 _ _
      | ⟨1, _⟩ => exact (lhs_xw_1 _ _).trans hl)
  have er : dot_S10000x128_S128x128_S10000x128_1_0_0_1_n_n.rhsIdx (ix2 k j) ((ValueIdx.contrEquiv1 dot_S10000x128_S128x128_S10000x128_1_0_0_1_n_n 128 rfl rfl).symm l) = ix2 l j :=
    funext fun a => Fin.ext (by
      match a with
      | ⟨0, _⟩ => exact (rhs_xw_0 _ _).trans hl
      | ⟨1, _⟩ => exact rhs_xw_1 _ _)
  rw [el, er]

/-- A 200-row block `a` times `s` into zero at row `p`, column `j`: the sum over the 10000 shared coordinates. -/
theorem mm_as_apply (a : FVec Ideal S200x10000 .bf16) (s : FVec Ideal S10000x128 .bf16) (p : Fin 200) (j : Fin 128) :
    FloatOps.matmul dot_S200x10000_S10000x128_S200x128_1_0_0_1_n_n none a s (constant S200x128 .f32 0x00000000#32) (ix2 p j)
      = ∑ k : Fin 10000, a (ix2 p k) * s (ix2 k j) := by
  rw [Ideal.matmul_constant_zero_apply, ← Equiv.sum_comp (ValueIdx.contrEquiv1 dot_S200x10000_S10000x128_S200x128_1_0_0_1_n_n 10000 rfl rfl).symm]
  refine Finset.sum_congr rfl fun k _ => ?_
  have hk := ValueIdx.contrEquiv1_symm_val dot_S200x10000_S10000x128_S200x128_1_0_0_1_n_n 10000 rfl rfl k
  have el : dot_S200x10000_S10000x128_S200x128_1_0_0_1_n_n.lhsIdx (ix2 p j) ((ValueIdx.contrEquiv1 dot_S200x10000_S10000x128_S200x128_1_0_0_1_n_n 10000 rfl rfl).symm k) = ix2 p k :=
    funext fun b => Fin.ext (by
      match b with
      | ⟨0, _⟩ => exact lhs_as_0 _ _
      | ⟨1, _⟩ => exact (lhs_as_1 _ _).trans hk)
  have er : dot_S200x10000_S10000x128_S200x128_1_0_0_1_n_n.rhsIdx (ix2 p j) ((ValueIdx.contrEquiv1 dot_S200x10000_S10000x128_S200x128_1_0_0_1_n_n 10000 rfl rfl).symm k) = ix2 k j :=
    funext fun b => Fin.ext (by
      match b with
      | ⟨0, _⟩ => exact (rhs_as_0 _ _).trans hk
      | ⟨1, _⟩ => exact rhs_as_1 _ _)
  rw [el, er]

/-! ## The payloads at an index -/

/-- The first payload (the value kept in the scratch buffer) is the support `x · W`. -/
theorem pay1_apply (x : Vec Ideal S10000x128 .f32) (w : Vec Ideal S128x128 .f32) (k : Fin 10000) (j : Fin 128) :
    k0_pay1 (F := Ideal) x w (ValueIdx.ix2 k j) = Cert.Spec.support x w k j := by
  unfold k0_pay1
  rw [shapeCast_self]
  exact mm_xw_apply x w k j

/-- The second payload: the first 200-row block of `adj` at a grid point times the kept support. -/
theorem pay2_apply (a : Vec Ideal S200x10000 .f32) (s : Vec Ideal S10000x128 .bf16) (p : Fin 200) (j : Fin 128) :
    k0_pay2 (F := Ideal) a s (ValueIdx.ix2 p j) = ∑ k : Fin 10000, a (ValueIdx.ix2 p k) * s (ValueIdx.ix2 k j) := by
  unfold k0_pay2
  exact mm_as_apply a s p j

/-- The third payload: the second 200-row block of `adj` at a grid point times the kept support. -/
theorem pay3_apply (a : Vec Ideal S200x10000 .f32) (s : Vec Ideal S10000x128 .bf16) (p : Fin 200) (j : Fin 128) :
    k0_pay3 (F := Ideal) a s (ValueIdx.ix2 p j) = ∑ k : Fin 10000, a (ValueIdx.ix2 p k) * s (ValueIdx.ix2 k j) := by
  unfold k0_pay3
  exact mm_as_apply a s p j

end Cert.KernelIdeal.Hand

end
-- ==== Proof.KI.Value.lean ====
/-
  What the idealized kernel's result array holds after the run, at the ideal instance: the layer's result
  `adj · (x · W)` of the argument arrays. The scratch holds the support `x · W` from the first grid point on; the
  output block at point `t` holds rows `400 t … 400 t + 399` of the result, its upper half from the even 200-row
  block of `adj` and its lower half from the odd one; the 25 blocks tile the array.
-/
import proofs.«119389_g1580547973936_cont_week2b_921_11_alg».proof.Proof.KI.Frame
import proofs.«119389_g1580547973936_cont_week2b_921_11_alg».proof.Proof.KI.Pieces
import proofs.«119389_g1580547973936_cont_week2b_921_11_alg».proof.Proof.KI.Payload
import proofs.«119389_g1580547973936_cont_week2b_921_11_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ)

open Cert.Spec Idealize.ShloMosaic.ValueIdx

/-! ## The arrays, the windows' index maps, the blocks read off the arrays -/

/-- The three argument arrays as the region finds them, at their literal types. -/
abbrev xarr (c : Dev nD) : Vec Ideal S10000x128 .f32 := V m c main_arg0
abbrev aarr (c : Dev nD) : Vec Ideal S10000x10000 .f32 := V m c main_arg1
abbrev warr (c : Dev nD) : Vec Ideal S128x128 .f32 := V m c main_arg2

/-- The printed index maps over the grid: `x` and `W` are one block each; the two `adj` windows take the even and
    the odd 200-row block of the point's 400 rows; the output block is the point's own. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 2 * t.val ∧ win0_2.index t (1 : Fin 2) = 0
    ∧ win0_3.index t (0 : Fin 2) = 2 * t.val + 1 ∧ win0_3.index t (1 : Fin 2) = 0
    ∧ win0_4.index t (0 : Fin 2) = t.val ∧ win0_4.index t (1 : Fin 2) = 0 :=
  (by decide +kernel : ∀ t : Fin grid0.N, _)

theorem lt_N (t : Fin cfg0.N) : t.val < 25 := lt_of_lt_of_eq t.isLt (show cfg0.N = 25 from N_0)

/-- Window 0's block is all of `x`. -/
theorem iblk0_eq (c : Dev nD) (t : Fin cfg0.N) : (iblk m c 0 t : Vec Ideal S10000x128 .f32) = xarr m c := by
  obtain ⟨e0, e1, -⟩ := idx_facts t
  funext y
  show V m c main_arg0 (((cfg0.win 0).blk t).view.emb y) = V m c main_arg0 y
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- Window 1's block is all of `W`. -/
theorem iblk1_eq (c : Dev nD) (t : Fin cfg0.N) : (iblk m c 1 t : Vec Ideal S128x128 .f32) = warr m c := by
  obtain ⟨-, -, e0, e1, -⟩ := idx_facts t
  funext y
  show V m c main_arg2 (((cfg0.win 1).blk t).view.emb y) = V m c main_arg2 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Window 2's block at point `t` is rows `400 t … 400 t + 199` of `adj`. -/
theorem iblk2_apply (c : Dev nD) (t : Fin cfg0.N) (p : Fin 200) (k : Fin 10000) (hr : 400 * t.val + p.val < 10000) :
    (iblk m c 2 t : Vec Ideal S200x10000 .f32) (ix2 p k) = aarr m c (ix2 (⟨400 * t.val + p.val, hr⟩ : Fin 10000) k) := by
  obtain ⟨-, -, -, -, e0, e1, -⟩ := idx_facts t
  show V m c main_arg1 (((cfg0.win 2).blk t).view.emb (ix2 p k)) = V m c main_arg1 (ix2 (⟨400 * t.val + p.val, hr⟩ : Fin 10000) k)
  refine congrArg _ (funext fun a => Fin.ext ?_)
  match a with
  | ⟨0, _⟩ => show win0_2.index t (0 : Fin 2) * 200 + 1 * p.val = 400 * t.val + p.val; omega
  | ⟨1, _⟩ => show win0_2.index t (1 : Fin 2) * 10000 + 1 * k.val = k.val; omega

/-- Window 3's block at point `t` is rows `400 t + 200 … 400 t + 399` of `adj`. -/
theorem iblk3_apply (c : Dev nD) (t : Fin cfg0.N) (p : Fin 200) (k : Fin 10000) (hr : 400 * t.val + (200 + p.val) < 10000) :
    (iblk m c 3 t : Vec Ideal S200x10000 .f32) (ix2 p k) = aarr m c (ix2 (⟨400 * t.val + (200 + p.val), hr⟩ : Fin 10000) k) := by
  obtain ⟨-, -, -, -, -, -, e0, e1, -⟩ := idx_facts t
  show V m c main_arg1 (((cfg0.win 3).blk t).view.emb (ix2 p k)) = V m c main_arg1 (ix2 (⟨400 * t.val + (200 + p.val), hr⟩ : Fin 10000) k)
  refine congrArg _ (funext fun a => Fin.ext ?_)
  match a with
  | ⟨0, _⟩ => show win0_3.index t (0 : Fin 2) * 200 + 1 * p.val = 400 * t.val + (200 + p.val); omega
  | ⟨1, _⟩ => show win0_3.index t (1 : Fin 2) * 10000 + 1 * k.val = k.val; omega

/-! ## The scratch holds the support; the output block holds 400 rows of the layer -/

/-- From the first point on the scratch holds `x · W`. -/
theorem sup_apply (c : Dev nD) (k : Fin 10000) (j : Fin 128) :
    sup m c (ix2 k j) = support (xarr m c) (warr m c) k j := by
  unfold sup
  refine (congrFun (sout_A_eq (F := Ideal) c (grid0.coords t0) (ms0 t0) (hs0 t0) (ms1 t0) (hs1 t0) (ms2 t0) (hs2 t0) (ms3 t0) (hs3 t0) (ms4 t0) (hs4 t0) scM (Memref.isWhole_whole _) ((hcond0 t0).mpr rfl) (iblk m c 0 t0) (iblk m c 1 t0) (iblk m c 2 t0) (iblk m c 3 t0)) (ix2 k j)).trans ?_
  refine (pay1_apply (iblk m c 0 t0) (iblk m c 1 t0) k j).trans ?_
  rw [iblk0_eq m c t0, iblk1_eq m c t0]

/-- The first half of the output block at point `t`: rows `400 t … 400 t + 199` of the layer. -/
theorem outAt_lo (c : Dev nD) (t : Fin cfg0.N) (p : Fin 200) (j : Fin 128) (hr : 400 * t.val + p.val < 10000) :
    outAt m c t (ix2 (⟨p.val, by omega⟩ : Fin 400) j) = gcnAt (xarr m c) (aarr m c) (warr m c) ⟨400 * t.val + p.val, hr⟩ j := by
  by_cases hz : t.val = 0
  · rw [outAt_first m c t hz]
    refine (out_A_lo (F := Ideal) c (grid0.coords t) (ms0 t) (hs0 t) (ms1 t) (hs1 t) (ms2 t) (hs2 t) (ms3 t) (hs3 t) (ms4 t) (hs4 t) scM (Memref.isWhole_whole _) ((hcond0 t).mpr hz) (iblk m c 0 t) (iblk m c 1 t) (iblk m c 2 t) (iblk m c 3 t) p j).trans ?_
    refine (pay2_apply (iblk m c 2 t) (k0_pay1 (iblk m c 0 t) (iblk m c 1 t)) p j).trans ?_
    unfold gcnAt
    refine Finset.sum_congr rfl fun k _ => ?_
    rw [iblk2_apply m c t p k hr]
    refine congrArg _ ((pay1_apply (iblk m c 0 t) (iblk m c 1 t) k j).trans ?_)
    rw [iblk0_eq m c t, iblk1_eq m c t]
  · rw [outAt_later m c t hz]
    refine (out_B_lo (F := Ideal) c (grid0.coords t) (ms0 t) (hs0 t) (ms1 t) (hs1 t) (ms2 t) (hs2 t) (ms3 t) (hs3 t) (ms4 t) (hs4 t) scM (Memref.isWhole_whole _) (fun hc => hz ((hcond0 t).mp hc)) (iblk m c 0 t) (iblk m c 1 t) (iblk m c 2 t) (iblk m c 3 t) (sup m c) p j).trans ?_
    refine (pay2_apply (iblk m c 2 t) (sup m c) p j).trans ?_
    unfold gcnAt
    refine Finset.sum_congr rfl fun k _ => ?_
    rw [iblk2_apply m c t p k hr, sup_apply m c k j]

/-- The second half: rows `400 t + 200 … 400 t + 399`. -/
theorem outAt_hi (c : Dev nD) (t : Fin cfg0.N) (p : Fin 200) (j : Fin 128) (hr : 400 * t.val + (200 + p.val) < 10000) :
    outAt m c t (ix2 (⟨200 + p.val, by omega⟩ : Fin 400) j) = gcnAt (xarr m c) (aarr m c) (warr m c) ⟨400 * t.val + (200 + p.val), hr⟩ j := by
  by_cases hz : t.val = 0
  · rw [outAt_first m c t hz]
    refine (out_A_hi (F := Ideal) c (grid0.coords t) (ms0 t) (hs0 t) (ms1 t) (hs1 t) (ms2 t) (hs2 t) (ms3 t) (hs3 t) (ms4 t) (hs4 t) scM (Memref.isWhole_whole _) ((hcond0 t).mpr hz) (iblk m c 0 t) (iblk m c 1 t) (iblk m c 2 t) (iblk m c 3 t) p j).trans ?_
    refine (pay3_apply (iblk m c 3 t) (k0_pay1 (iblk m c 0 t) (iblk m c 1 t)) p j).trans ?_
    unfold gcnAt
    refine Finset.sum_congr rfl fun k _ => ?_
    rw [iblk3_apply m c t p k hr]
    refine congrArg _ ((pay1_apply (iblk m c 0 t) (iblk m c 1 t) k j).trans ?_)
    rw [iblk0_eq m c t, iblk1_eq m c t]
  · rw [outAt_later m c t hz]
    refine (out_B_hi (F := Ideal) c (grid0.coords t) (ms0 t) (hs0 t) (ms1 t) (hs1 t) (ms2 t) (hs2 t) (ms3 t) (hs3 t) (ms4 t) (hs4 t) scM (Memref.isWhole_whole _) (fun hc => hz ((hcond0 t).mp hc)) (iblk m c 0 t) (iblk m c 1 t) (iblk m c 2 t) (iblk m c 3 t) (sup m c) p j).trans ?_
    refine (pay3_apply (iblk m c 3 t) (sup m c) p j).trans ?_
    unfold gcnAt
    refine Finset.sum_congr rfl fun k _ => ?_
    rw [iblk3_apply m c t p k hr, sup_apply m c k j]

/-! ## From blocks to the array -/

/-- The layer's result of the argument arrays, as contents of the result array. -/
def Gout (c : Dev nD) : Buf (Elt Ideal) ((cfg0.win 4).arr.view.loc (c.tc : Thread nD τ)) :=
  gcn (xarr m c) (aarr m c) (warr m c)

/-- What point `t` writes back is block `t` of the layer's result. -/
theorem flushed_eq (c : Dev nD) (t : Fin cfg0.N) :
    (dats m 0 c).flushed 4 t = ((cfg0.win 4).blk t).view.read (Elt Ideal) (Gout m c) := by
  show (cfg0.win 4).cut (grid0.coords t) ((dats m 0 c).after 4 t) = _
  rw [after4]
  obtain ⟨-, -, -, -, -, -, -, -, e0, e1⟩ := idx_facts t
  have hN := lt_N t
  funext y
  obtain ⟨r, j, rfl⟩ : ∃ (r : Fin 400) (j : Fin 128), y = ix2 r j := ⟨y 0, y 1, eq_ix2 y⟩
  have hr : 400 * t.val + r.val < 10000 := by have := r.isLt; omega
  have hemb : ((cfg0.win 4).blk t).view.emb (ix2 r j) = ix2 (⟨400 * t.val + r.val, hr⟩ : Fin 10000) j := by
    funext a; apply Fin.ext
    match a with
    | ⟨0, _⟩ => show win0_4.index t (0 : Fin 2) * 400 + 1 * r.val = 400 * t.val + r.val; omega
    | ⟨1, _⟩ => show win0_4.index t (1 : Fin 2) * 128 + 1 * j.val = j.val; omega
  show outAt m c t (ix2 r j) = gcn (xarr m c) (aarr m c) (warr m c) (((cfg0.win 4).blk t).view.emb (ix2 r j))
  rw [hemb, gcn_ix2]
  by_cases hlo : r.val < 200
  · exact outAt_lo m c t ⟨r.val, hlo⟩ j hr
  · have hp : r.val - 200 < 200 := by have := r.isLt; omega
    have hr' : 400 * t.val + (200 + (r.val - 200)) < 10000 := by omega
    have h := outAt_hi m c t ⟨r.val - 200, hp⟩ j hr'
    have e1 : (⟨200 + (r.val - 200), by omega⟩ : Fin 400) = r := Fin.ext (by show 200 + (r.val - 200) = r.val; omega)
    have e2 : (⟨400 * t.val + (200 + (r.val - 200)), hr'⟩ : Fin 10000) = ⟨400 * t.val + r.val, hr⟩ :=
      Fin.ext (by show 400 * t.val + (200 + (r.val - 200)) = 400 * t.val + r.val; omega)
    rw [e1, e2] at h
    exact h

/-- An index of the result array is in point `t`'s block iff each coordinate is in the block's range. -/
theorem mem_blk4 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- The 25 output blocks cover the result array: row `r` is in the block of point `r / 400`. -/
theorem cover4 (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have ht : (i 0).val / 400 < cfg0.N := by rw [show cfg0.N = 25 from N_0]; omega
  obtain ⟨-, -, -, -, -, -, -, -, e0, e1⟩ := idx_facts ⟨(i 0).val / 400, ht⟩
  refine ⟨⟨(i 0).val / 400, ht⟩, flush0_4 _, ?_⟩
  rw [mem_blk4]
  intro a
  match a with
  | ⟨0, _⟩ =>
    show win0_4.index ⟨(i 0).val / 400, ht⟩ (0 : Fin 2) * 400 ≤ (i 0).val ∧ (i 0).val < win0_4.index ⟨(i 0).val / 400, ht⟩ (0 : Fin 2) * 400 + 400
    rw [e0]; show (i 0).val / 400 * 400 ≤ (i 0).val ∧ (i 0).val < (i 0).val / 400 * 400 + 400; omega
  | ⟨1, _⟩ =>
    show win0_4.index ⟨(i 0).val / 400, ht⟩ (1 : Fin 2) * 128 ≤ (i 1).val ∧ (i 1).val < win0_4.index ⟨(i 0).val / 400, ht⟩ (1 : Fin 2) * 128 + 128
    rw [e1]; omega

/-- THE RESULT ARRAY after the run is the layer's result of the argument arrays. -/
theorem final4 (c : Dev nD) : (dats m 0 c).arrAt 4 cfg0.N = Gout m c :=
  (dats m 0 c).arrAt_eq_of_cover 4 (Gout m c) (fun t _ => flushed_eq m c t) cover4

/-! ## The run, read -/

/-- The run re-posted: the result array at the layer's result of the argument arrays, the arguments unchanged. -/
theorem run_named (ρ : Dev nD → PrngReg) :
    θ_run defs (onTc (τ := τ) (main (F := Ideal))) ⟨m, fun _ => 0, ρ⟩ fun r => ∀ c : Dev nD,
      r.2.mem ((c.tc : Thread nD τ).loc main_v0) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c 4).trans (final4 m c), (h c 0).trans (kept_arg0 m c),
      (h c 2).trans (kept_arg1 m c), (h c 1).trans (kept_arg2 m c)⟩)
    (run_main (F := Ideal) m ρ)

end Cert.KernelIdeal.Hand

end
-- ==== Proof.RefSpec.lean ====
/-
  The reference program computes the layer `out = adj · (x · W)` of the specification: its two matrix
  products, read at an index, are the two nested sums, once each operand index is written by its coordinates.
-/
import proofs.«119389_g1580547973936_cont_week2b_921_11_alg».proof.Proof.Gen.ReferenceIdeal.Read
import proofs.«119389_g1580547973936_cont_week2b_921_11_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The outer product's left operand index: row of the result, contraction coordinate. -/
theorem lidx_v1_eq (i : S10000x128.Idx) (k : Fin 10000) : lidx_main_v1 i k = ix2 (n0 := 10000) (n1 := 10000) (i 0) k :=
  funext fun a => Fin.ext (by match a with | ⟨0, _⟩ => rfl | ⟨1, _⟩ => rfl)

/-- The outer product's right operand index: contraction coordinate, column of the result. -/
theorem ridx_v1_eq (i : S10000x128.Idx) (k : Fin 10000) : ridx_main_v1 i k = ix2 (n0 := 10000) (n1 := 128) k (i 1) :=
  funext fun a => Fin.ext (by match a with | ⟨0, _⟩ => rfl | ⟨1, _⟩ => rfl)

/-- The inner product's left operand index. -/
theorem lidx_v0_eq (i : S10000x128.Idx) (l : Fin 128) : lidx_main_v0 i l = ix2 (n0 := 10000) (n1 := 128) (i 0) l :=
  funext fun a => Fin.ext (by match a with | ⟨0, _⟩ => rfl | ⟨1, _⟩ => rfl)

/-- The inner product's right operand index. -/
theorem ridx_v0_eq (i : S10000x128.Idx) (l : Fin 128) : ridx_main_v0 i l = ix2 (n0 := 128) (n1 := 128) l (i 1) :=
  funext fun a => Fin.ext (by match a with | ⟨0, _⟩ => rfl | ⟨1, _⟩ => rfl)

/-- The inner product of the reference is the support `x · W`. -/
theorem v0_is_support (x0 : (⟨S10000x128, .f32⟩ : BufTy).Contents (Elt Ideal))
    (x2 : (⟨S128x128, .f32⟩ : BufTy).Contents (Elt Ideal)) (k : Fin 10000) (j : Fin 128) :
    val_main_v0 (F := Ideal) x0 x2 (ix2 k j) = Cert.Spec.support x0 x2 k j := by
  rw [val_main_v0_apply]
  unfold Cert.Spec.support
  refine Finset.sum_congr rfl fun l _ => ?_
  rw [lidx_v0_eq, ridx_v0_eq]

/-- The reference's result is the layer of the specification. -/
theorem ref_is_gcn (x0 : (⟨S10000x128, .f32⟩ : BufTy).Contents (Elt Ideal))
    (x1 : (⟨S10000x10000, .f32⟩ : BufTy).Contents (Elt Ideal))
    (x2 : (⟨S128x128, .f32⟩ : BufTy).Contents (Elt Ideal)) :
    Cert.ReferenceIdeal.Read.val_main_v1 (F := Ideal) x0 x1 x2 = Cert.Spec.gcn x0 x1 x2 := by
  funext i
  rw [val_main_v1_apply]
  show _ = Cert.Spec.gcnAt x0 x1 x2 (i 0) (i 1)
  unfold Cert.Spec.gcnAt
  refine Finset.sum_congr rfl fun k _ => ?_
  rw [lidx_v1_eq, ridx_v1_eq]
  exact congrArg (x1 (ix2 (n0 := 10000) (n1 := 10000) (i 0) k) * ·) (v0_is_support x0 x2 k (i 1))

end Cert.ReferenceIdeal.RefValue

end
-- ==== Proof.lean ====
/-
  The certificate of a graph-convolution layer `out = adj · (x · W)` (x : 10000 × 128, adj : 10000 × 10000,
  W : 128 × 128) computed by ONE pipelined kernel over 25 grid points against two matrix products on the host.

  The kernel computes the support `x · W` once, at its first grid point, into a scratch buffer that every later
  point reads, and at each point multiplies two 200-row blocks of `adj` (the even and the odd block of the point's
  400 rows, read through two windows on the one array) by the support into the two halves of a 400-row output
  block. At the ideal instance a change of float format is the identity and both matrix products are plain finite
  sums over the extended reals, so every entry of the kernel's result is the same nested sum
  `Σ_k adj[r, k] · (Σ_l x[k, l] · W[l, j])` the reference computes: no law of arithmetic is used, and the
  precondition (finite inputs) is not opened.

  The frames of the kernel (as printed, and idealized) are proved against the launch rule for a region whose input
  windows share an array: the shared array is held by halves, the scratch is tracked by the region invariant, the
  body is run whole in its two cases. The reference's frame is its run with the result dropped. `preserves` has no
  ledger entry.
-/
import proofs.«119389_g1580547973936_cont_week2b_921_11_alg».proof.Defs
import proofs.«119389_g1580547973936_cont_week2b_921_11_alg».proof.Proof.Gen.Kernel
import proofs.«119389_g1580547973936_cont_week2b_921_11_alg».proof.Proof.Gen.KernelIdeal
import proofs.«119389_g1580547973936_cont_week2b_921_11_alg».proof.Proof.Gen.ReferenceIdeal
import proofs.«119389_g1580547973936_cont_week2b_921_11_alg».proof.Proof.Gen.Pre_finite_inputs
import proofs.«119389_g1580547973936_cont_week2b_921_11_alg».proof.Proof.Gen.ReferenceIdeal.Run
import proofs.«119389_g1580547973936_cont_week2b_921_11_alg».proof.Proof.Gen.ReferenceIdeal.Read
import proofs.«119389_g1580547973936_cont_week2b_921_11_alg».proof.Proof.K.Frame
import proofs.«119389_g1580547973936_cont_week2b_921_11_alg».proof.Proof.KI.Frame
import proofs.«119389_g1580547973936_cont_week2b_921_11_alg».proof.Proof.KI.Value
import proofs.«119389_g1580547973936_cont_week2b_921_11_alg».proof.Proof.RefSpec

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

/-- The reference has no kernel: its frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the layer's result of the (agreeing) argument arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.Gout m c, Cert.KernelIdeal.Hand.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_is_gcn, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
